-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩
abbrev S10000 : Shape := ⟨1, ![10000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  reducesTo_S10000x10000_S10000_d1 : S10000x10000.ReducesTo [1] S10000
  bcast_S_S10000 : S_.BroadcastsInDim S10000 (![] : Fin 0 → Fin S10000.rank)
  reducesTo_S10000_S_d0 : S10000.ReducesTo [0] S_

variable [Facts]

def fn_part1 {F : FTy → Type} [FloatOps F] (main_v13 : IVec S_ 1) (main_v14 : FVec F S10000 .f32) (main_v15 : FVec F S10000 .f32) : IVec S_ 1 :=
  let main_v16 : FVec F S10000 .f32 := addf main_v14 main_v15
  let main_cst_6 : FVec F S_ .f32 := constant S_ .f32 0x00000000#32
  let main_v17 : FVec F S10000 .f32 := broadcastInDim S10000 ![] bcast_S_S10000 main_cst_6
  let main_v18 : IVec S10000 1 := cmpf .une main_v16 main_v17
  let main_c_7 : IVec S_ 1 := constantI S_ 1 1#1
  let main_v19 : IVec S_ 1 := (fun x v => Host.reduce IntOp.andi x v reducesTo_S10000_S_d0 h_S_) main_v18 main_c_7
  let main_v20 : IVec S_ 1 := andi main_v13 main_v19
  main_v20

def fn {F : FTy → Type} [FloatOps F] (main_arg0 : FVec F S10000x128 .f32) (main_arg1 : FVec F S10000x10000 .f32) (main_arg2 : FVec F S128x256 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_cst_4 : FVec F S_ .f32 := constant S_ .f32 0x00000000#32
  let main_v14 : FVec F S10000 .f32 := (fun x v => Host.reduceAdd x v reducesTo_S10000x10000_S10000_d1 h_S_) main_arg1 main_cst_4
  let main_cst_5 : FVec F S_ .f32 := constant S_ .f32 0x3F800000#32
  let main_v15 : FVec F S10000 .f32 := broadcastInDim S10000 ![] bcast_S_S10000 main_cst_5
  fn_part1 (F := F) main_v13 main_v14 main_v15
-- ==== Kernel.lean ====
abbrev S10000x128 : Shape := ⟨2, ![10000, 128]⟩
abbrev S10000x10000 : Shape := ⟨2, ![10000, 10000]⟩
abbrev S128x256 : Shape := ⟨2, ![128, 256]⟩
abbrev S128x128 : Shape := ⟨2, ![128, 128]⟩
abbrev S400x128 : Shape := ⟨2, ![400, 128]⟩
abbrev S400x10000 : Shape := ⟨2, ![400, 10000]⟩
abbrev S400 : Shape := ⟨1, ![400]⟩
abbrev S400x1 : Shape := ⟨2, ![400, 1]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S400x10000, .f32⟩
  | .local _ .vmem, ⟨3, _⟩ => ⟨S400x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S400x128, .f32⟩
  | .local _ .vmem, ⟨8, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128x256_S128x128_0_0 : S128x256.Slices ![0, 0] S128x128
  transposes_S128x128_S128x128_1_0 : S128x128.Transposes [1, 0] S128x128
  slices_S128x256_S128x128_0_128 : S128x256.Slices ![0, 128] S128x128
  inb_S400x10000_S400x10000_0_0 : ∀ a, (![0, 0] : Fin 2 → Nat) a + S400x10000.size a ≤ S400x10000.size a
  h_S400x10000 : 0 < S400x10000.numel
  reduces_S400x10000_S400 : S400x10000.Reduces [1] S400
  shapeCasts_S400_S400x1 : S400.ShapeCasts S400x1
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S400x1_S400x128 : S400x1.Broadcasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S10000x128.size a
  hwx0_0 : ∀ i : grid0.Coords, EltTy.bits .f32 = 32 ∨ (Rect.block (s := S10000x128) S400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S256x128 : Shape := ⟨2, ![256, 128]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S10000x128, .f32⟩
  | .hbm, ⟨4, _⟩ => ⟨S_, .f32⟩
  | .hbm, ⟨5, _⟩ => ⟨S10000, .f32⟩
  | .hbm, ⟨6, _⟩ => ⟨S10000x1, .f32⟩
  | .hbm, ⟨7, _⟩ => ⟨S_, .f32⟩
  | .hbm, ⟨8, _⟩ => ⟨S10000x1, .f32⟩
  | .hbm, ⟨9, _⟩ => ⟨S10000x1, .f32⟩
  | .hbm, ⟨10, _⟩ => ⟨S10000x128, .f32⟩
  | .hbm, ⟨11, _⟩ => ⟨S10000x128, .f32⟩
  | .hbm, ⟨12, _⟩ => ⟨S10000x256, .f32⟩
  | .hbm, ⟨13, _⟩ => ⟨S256x128, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  shapeCasts_S10000_S10000x1 : S10000.ShapeCasts S10000x1
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  transposes_S128x256_S256x128_1_0 : S128x256.Transposes [1, 0] S256x128
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KFrame.lean ====
/-
  The frame of the program with the Pallas kernel: it runs to the end, faults nowhere, and leaves its three
  argument arrays as they were; and what its result array holds afterwards.

  @main slices the weight matrix into its two column halves and transposes each (four host operations), then
  launches one pipelined kernel over a grid of 25 points. Point t stages rows 400 t .. 400 t + 399 of the feature
  matrix and of the adjacency matrix, and, once, the whole feature matrix and the two transposed weight halves;
  the body reads all five, stores one 400 x 128 block, and the block is written back to rows 400 t .. 400 t + 399
  of the result. The feature matrix is handed to the kernel through TWO input windows (its row block and the
  whole of it), so its buffer is held by the pipeline in two halves of the full share, one per window; both are
  only read, so at the end both halves hold the launch contents and join again.

  Stated for any float instance: nothing here looks inside the body's arithmetic, which is one pure function of the
  five loaded blocks.
-/
import proofs.«109669_g81527069213077_cont_9to1c4b_579_13_alg».proof.Proof.Gen.Kernel.Launch
import proofs.«109669_g81527069213077_cont_9to1c4b_579_13_alg».proof.Proof.Gen.Kernel.Skeleton
import proofs.«109669_g81527069213077_cont_9to1c4b_579_13_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- What core c's buffers hold when the kernel is launched: the launch contents after the four host operations
    (the two slices of the weight matrix and their transposes). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the four host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The blocks the pipeline stages -/

/-- Window w's block at point t, read off the window's array as the kernel's launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, whether the pipeline fetched it there or
    kept it from the point before: the two windows that move with t are fetched at every point; the three that do not
    are fetched once, and their block index never changes. One statement per window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rRows : Rect S400x128 := Rect.unit (s := S400x128) ![0, 0] S400x128.size inb_S400x128_S400x128_0_0
abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0

/-- What the body leaves in the result window's buffer: its one store, of the body's arithmetic applied to the five
    loaded blocks (the feature rows, the adjacency rows, the whole feature matrix, the two weight halves). -/
def outBlock (xRows : Vec F S400x128 .f32) (xAdj : Vec F S400x10000 .f32) (xFeat : Vec F S10000x128 .f32) (xW1 : Vec F S128x128 .f32)
    (xW2 : Vec F S128x128 .f32) : Vec F S400x128 .f32 :=
  View.canon [⟨rRows, k0_pay1 (View.ld xAdj rAdj) (View.ld xFeat rFeat) (View.ld xRows rRows) (View.ld xW1 rW) (View.ld xW2 rW)⟩]

/-- The one store is of the whole 400 x 128 buffer. -/
theorem outCover (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The body's triple -/

set_option maxHeartbeats 1000000 in
/-- The body on whole staging buffers, the five inputs at given contents and the result's at anything: it ends with
    the inputs as they were and the result's buffer at `outBlock` of them. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x128 .f32) (harg6 : arg6.IsWhole)
    (x0 : Vec F S400x128 .f32) (x1 : Vec F S400x10000 .f32) (x2 : Vec F S10000x128 .f32) (x3 : Vec F S128x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- Core c's proof data: the arrays as the launch finds them; after the body at point t each input's buffer still at
    its block and the result's at `outBlock` of the five blocks; between points nothing of the kernel's own to keep
    (it has no scratch); nothing owed. The feature matrix's buffer is held half by its row-block window and half by
    the whole-matrix window; every other array by its one window whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: every input buffer holds its block, so the triple applies; what lies between points
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The launch -/

/-- Between points the proof data keep only the core's scoped buffers that are no staging buffer (there are none). -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The five distinct buffers behind the six windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v1) ↦{fullShare} V m c main_call0_v1) ∗ (((c : Thread nD τ).loc main_call0_v3) ↦{fullShare} V m c main_call0_v3)
          ∗ (((c : Thread nD τ).loc main_v0) ↦{fullShare} V m c main_v0)) := by
  unfold Pipeline.arrBufs
  exact bigSep_eq_bigSepL_of_eq [main_arg0, main_arg1, main_call0_v1, main_call0_v3, main_v0] (by decide) (by decide) _

/-- Each window's array as the proof data hold it at entry: the buffer behind it, whole, at the window's share, at
    the contents the launch finds. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c : Thread nD τ).loc main_arg0) ↦{fullShare.left} V m c main_arg0) := by
  rw [(arr_whole0 0).set_eq_univ]; rfl
theorem arr1_eq (c : Dev nD) :
    (((cfg0.win 1).arr.view.loc (c.tc : Thread nD τ)) ↦[(cfg0.win 1).arr.view.set]{(dats m 0 c).share 1} (dats m 0 c).arrAt 1 0 : sProp 𝕄)
      = (((c : Thread nD τ).loc main_arg1) ↦{fullShare} V m c main_arg1) := by
  rw [(arr_whole0 1).set_eq_univ]; rfl
theorem arr2_eq (c : Dev nD) :
    (((cfg0.win 2).arr.view.loc (c.tc : Thread nD τ)) ↦[(cfg0.win 2).arr.view.set]{(dats m 0 c).share 2} (dats m 0 c).arrAt 2 0 : sProp 𝕄)
      = (((c : Thread nD τ).loc main_arg0) ↦{fullShare.right} V m c main_arg0) := by
  rw [(arr_whole0 2).set_eq_univ]; rfl
theorem arr3_eq (c : Dev nD) :
    (((cfg0.win 3).arr.view.loc (c.tc : Thread nD τ)) ↦[(cfg0.win 3).arr.view.set]{(dats m 0 c).share 3} (dats m 0 c).arrAt 3 0 : sProp 𝕄)
      = (((c : Thread nD τ).loc main_call0_v1) ↦{fullShare} V m c main_call0_v1) := by
  rw [(arr_whole0 3).set_eq_univ]; rfl
theorem arr4_eq (c : Dev nD) :
    (((cfg0.win 4).arr.view.loc (c.tc : Thread nD τ)) ↦[(cfg0.win 4).arr.view.set]{(dats m 0 c).share 4} (dats m 0 c).arrAt 4 0 : sProp 𝕄)
      = (((c : Thread nD τ).loc main_call0_v3) ↦{fullShare} V m c main_call0_v3) := by
  rw [(arr_whole0 4).set_eq_univ]; rfl
theorem arr5_eq (c : Dev nD) :
    (((cfg0.win 5).arr.view.loc (c.tc : Thread nD τ)) ↦[(cfg0.win 5).arr.view.set]{(dats m 0 c).share 5} (dats m 0 c).arrAt 5 0 : sProp 𝕄)
      = (((c : Thread nD τ).loc main_v0) ↦{fullShare} V m c main_v0) := by
  rw [(arr_whole0 5).set_eq_univ]; rfl

/-- What the launch hands the pipeline of the arrays' buffers, each whole, is what the proof data asks: every array
    at its window's share; the feature matrix's buffer, behind two windows, cut into the two halves of the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr0_eq, arr1_eq, arr2_eq, arr3_eq, arr4_eq, arr5_eq]
  iintro ⟨H0, H1, H3, H4, H5⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H3]; · iexact H3
  isplitl [H4]; · iexact H4
  iexact H5

set_option backward.isDefEq.respectTransparency.types false in
/-- From any memory with zero counters every weakly fair execution of @main terminates, with every windowed array at
    what the write-backs leave and every other unscoped buffer as the launch of the kernel found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the result array named: it ends at what the 25 write-backs leave, and the three arguments are as
    launched (the feature and adjacency matrices are input windows' arrays, never written; the weight matrix no
    window stages, and no host operation writes it). -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

/-- The frame: the program runs to the end without a fault and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Region

end
-- ==== Proof.KIFrame.lean ====
/-
  The frame of the program with the Pallas kernel: it runs to the end, faults nowhere, and leaves its three
  argument arrays as they were; and what its result array holds afterwards.

  @main slices the weight matrix into its two column halves and transposes each (four host operations), then
  launches one pipelined kernel over a grid of 25 points. Point t stages rows 400 t .. 400 t + 399 of the feature
  matrix and of the adjacency matrix, and, once, the whole feature matrix and the two transposed weight halves;
  the body reads all five, stores one 400 x 128 block, and the block is written back to rows 400 t .. 400 t + 399
  of the result. The feature matrix is handed to the kernel through TWO input windows (its row block and the
  whole of it), so its buffer is held by the pipeline in two halves of the full share, one per window; both are
  only read, so at the end both halves hold the launch contents and join again.

  Stated for any float instance: nothing here looks inside the body's arithmetic, which is one pure function of the
  five loaded blocks.
-/
import proofs.«109669_g81527069213077_cont_9to1c4b_579_13_alg».proof.Proof.Gen.KernelIdeal.Launch
import proofs.«109669_g81527069213077_cont_9to1c4b_579_13_alg».proof.Proof.Gen.KernelIdeal.Skeleton
import proofs.«109669_g81527069213077_cont_9to1c4b_579_13_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the kernel -/

/-- What core c's buffers hold when the kernel is launched: the launch contents after the four host operations
    (the two slices of the weight matrix and their transposes). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the four host operations and then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The blocks the pipeline stages -/

/-- Window w's block at point t, read off the window's array as the kernel's launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window the body only reads holds its block at every point, whether the pipeline fetched it there or
    kept it from the point before: the two windows that move with t are fetched at every point; the three that do not
    are fetched once, and their block index never changes. One statement per window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it stores -/

abbrev rRows : Rect S400x128 := Rect.unit (s := S400x128) ![0, 0] S400x128.size inb_S400x128_S400x128_0_0
abbrev rAdj : Rect S400x10000 := Rect.unit (s := S400x10000) ![0, 0] S400x10000.size inb_S400x10000_S400x10000_0_0
abbrev rFeat : Rect S10000x128 := Rect.unit (s := S10000x128) ![0, 0] S10000x128.size inb_S10000x128_S10000x128_0_0
abbrev rW : Rect S128x128 := Rect.unit (s := S128x128) ![0, 0] S128x128.size inb_S128x128_S128x128_0_0

/-- What the body leaves in the result window's buffer: its one store, of the body's arithmetic applied to the five
    loaded blocks (the feature rows, the adjacency rows, the whole feature matrix, the two weight halves). -/
def outBlock (xRows : Vec F S400x128 .f32) (xAdj : Vec F S400x10000 .f32) (xFeat : Vec F S10000x128 .f32) (xW1 : Vec F S128x128 .f32)
    (xW2 : Vec F S128x128 .f32) : Vec F S400x128 .f32 :=
  View.canon [⟨rRows, k0_pay1 (View.ld xAdj rAdj) (View.ld xFeat rFeat) (View.ld xRows rRows) (View.ld xW1 rW) (View.ld xW2 rW)⟩]

/-- The one store is of the whole 400 x 128 buffer. -/
theorem outCover (p0 : Vec F S400x128 .f32) (y : S400x128.Idx) :
    ∃ pc ∈ ([⟨rRows, p0⟩] : List (View.Piece (Elt F) S400x128 .f32)), y ∈ pc.1.set :=
  View.cover_of_tiled [⟨rRows, p0⟩] S400x128.size (by rfl) y

/-! ## The body's triple -/

set_option maxHeartbeats 1000000 in
/-- The body on whole staging buffers, the five inputs at given contents and the result's at anything: it ends with
    the inputs as they were and the result's buffer at `outBlock` of them. -/
theorem sound_kernel (c : Dev nD) (E : Set ℕ) (i : grid0.Coords)
    (arg1 : Memref sig .tc .vmem S400x128 .f32) (harg1 : arg1.IsWhole) (arg2 : Memref sig .tc .vmem S400x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S400x128 .f32) (harg6 : arg6.IsWhole)
    (x0 : Vec F S400x128 .f32) (x1 : Vec F S400x10000 .f32) (x2 : Vec F S10000x128 .f32) (x3 : Vec F S128x128 .f32) (x4 : Vec F S128x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__sage_kernel i arg1 harg1 arg2 harg2 arg3 harg3 arg4 harg4 arg5 harg5 arg6 harg6) K := by
  simp only [cc0__sage_kernel_eq_skeleton]; unfold cc0__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (outCover _)

/-! ## The pipeline's proof data -/

/-- Core c's proof data: the arrays as the launch finds them; after the body at point t each input's buffer still at
    its block and the result's at `outBlock` of the five blocks; between points nothing of the kernel's own to keep
    (it has no scratch); nothing owed. The feature matrix's buffer is held half by its row-block window and half by
    the whole-matrix window; every other array by its one window whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = outBlock (iblk m c 0 t) (iblk m c 1 t) (iblk m c 2 t) (iblk m c 3 t) (iblk m c 4 t) := by dsimp only [dats]

theorem before0 (c : Dev nD) (t : Fin cfg0.N) (d) : (dats m 0 c).before 0 t d = iblk m c 0 t := before0_of m (dats m 0 c) (A_eq m c 0) (after0 m c) t d
theorem before1 (c : Dev nD) (t : Fin cfg0.N) (d) : (dats m 0 c).before 1 t d = iblk m c 1 t := before1_of m (dats m 0 c) (A_eq m c 1) (after1 m c) t d
theorem before2 (c : Dev nD) (t : Fin cfg0.N) (d) : (dats m 0 c).before 2 t d = iblk m c 2 t := before2_of m (dats m 0 c) (A_eq m c 2) (after2 m c) t d
theorem before3 (c : Dev nD) (t : Fin cfg0.N) (d) : (dats m 0 c).before 3 t d = iblk m c 3 t := before3_of m (dats m 0 c) (A_eq m c 3) (after3 m c) t d
theorem before4 (c : Dev nD) (t : Fin cfg0.N) (d) : (dats m 0 c).before 4 t d = iblk m c 4 t := before4_of m (dats m 0 c) (A_eq m c 4) (after4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: every input buffer holds its block, so the triple applies; what lies between points
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The launch -/

/-- Between points the proof data keep only the core's scoped buffers that are no staging buffer (there are none). -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The five distinct buffers behind the six windows' arrays, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_call0_v1) ↦{fullShare} V m c main_call0_v1) ∗ (((c : Thread nD τ).loc main_call0_v3) ↦{fullShare} V m c main_call0_v3)
          ∗ (((c : Thread nD τ).loc main_v0) ↦{fullShare} V m c main_v0)) := by
  unfold Pipeline.arrBufs
  exact bigSep_eq_bigSepL_of_eq [main_arg0, main_arg1, main_call0_v1, main_call0_v3, main_v0] (by decide) (by decide) _

/-- Each window's array as the proof data hold it at entry: the buffer behind it, whole, at the window's share, at
    the contents the launch finds. -/
theorem arr0_eq (c : Dev nD) :
    (((cfg0.win 0).arr.view.loc (c.tc : Thread nD τ)) ↦[(cfg0.win 0).arr.view.set]{(dats m 0 c).share 0} (dats m 0 c).arrAt 0 0 : sProp 𝕄)
      = (((c : Thread nD τ).loc main_arg0) ↦{fullShare.left} V m c main_arg0) := by
  rw [(arr_whole0 0).set_eq_univ]; rfl
theorem arr1_eq (c : Dev nD) :
    (((cfg0.win 1).arr.view.loc (c.tc : Thread nD τ)) ↦[(cfg0.win 1).arr.view.set]{(dats m 0 c).share 1} (dats m 0 c).arrAt 1 0 : sProp 𝕄)
      = (((c : Thread nD τ).loc main_arg1) ↦{fullShare} V m c main_arg1) := by
  rw [(arr_whole0 1).set_eq_univ]; rfl
theorem arr2_eq (c : Dev nD) :
    (((cfg0.win 2).arr.view.loc (c.tc : Thread nD τ)) ↦[(cfg0.win 2).arr.view.set]{(dats m 0 c).share 2} (dats m 0 c).arrAt 2 0 : sProp 𝕄)
      = (((c : Thread nD τ).loc main_arg0) ↦{fullShare.right} V m c main_arg0) := by
  rw [(arr_whole0 2).set_eq_univ]; rfl
theorem arr3_eq (c : Dev nD) :
    (((cfg0.win 3).arr.view.loc (c.tc : Thread nD τ)) ↦[(cfg0.win 3).arr.view.set]{(dats m 0 c).share 3} (dats m 0 c).arrAt 3 0 : sProp 𝕄)
      = (((c : Thread nD τ).loc main_call0_v1) ↦{fullShare} V m c main_call0_v1) := by
  rw [(arr_whole0 3).set_eq_univ]; rfl
theorem arr4_eq (c : Dev nD) :
    (((cfg0.win 4).arr.view.loc (c.tc : Thread nD τ)) ↦[(cfg0.win 4).arr.view.set]{(dats m 0 c).share 4} (dats m 0 c).arrAt 4 0 : sProp 𝕄)
      = (((c : Thread nD τ).loc main_call0_v3) ↦{fullShare} V m c main_call0_v3) := by
  rw [(arr_whole0 4).set_eq_univ]; rfl
theorem arr5_eq (c : Dev nD) :
    (((cfg0.win 5).arr.view.loc (c.tc : Thread nD τ)) ↦[(cfg0.win 5).arr.view.set]{(dats m 0 c).share 5} (dats m 0 c).arrAt 5 0 : sProp 𝕄)
      = (((c : Thread nD τ).loc main_v0) ↦{fullShare} V m c main_v0) := by
  rw [(arr_whole0 5).set_eq_univ]; rfl

/-- What the launch hands the pipeline of the arrays' buffers, each whole, is what the proof data asks: every array
    at its window's share; the feature matrix's buffer, behind two windows, cut into the two halves of the full share. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr0_eq, arr1_eq, arr2_eq, arr3_eq, arr4_eq, arr5_eq]
  iintro ⟨H0, H1, H3, H4, H5⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H3]; · iexact H3
  isplitl [H4]; · iexact H4
  iexact H5

set_option backward.isDefEq.respectTransparency.types false in
/-- From any memory with zero counters every weakly fair execution of @main terminates, with every windowed array at
    what the write-backs leave and every other unscoped buffer as the launch of the kernel found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- The run with the result array named: it ends at what the 25 write-backs leave, and the three arguments are as
    launched (the feature and adjacency matrices are input windows' arrays, never written; the weight matrix no
    window stages, and no host operation writes it). -/
theorem run_named : θ_run defs (onTc (τ := τ) (main (F := F))) ⟨m, fun _ => 0, ρ⟩ (fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 rfl (by decide))).trans (V_main_arg2 m c)⟩) (run_main m ρ)

/-- The frame: the program runs to the end without a fault and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Region

end
-- ==== Proof.Spec.lean ====
/-
  The function both programs compute, index by index, on the extended reals.

  Inputs: a feature matrix `feat` (10000 x 128), an adjacency matrix `adj` (10000 x 10000), a weight matrix `W`
  (128 x 256). For row r and output column j:

    rowsum r      = ∑ l, adj (r, l)
    denom r       = rowsum r + 1
    neigh r k     = ∑ l, adj (r, l) · feat (l, k)                      (k < 128)
    result (r, j) = ∑ k, feat (r, k) · W (j, k)  +  ∑ k, (neigh r k / denom r) · W (j, 128 + k)

  The quotient is the extended reals' (`Ideal.div`). A program that forms `neigh r k · (1 / denom r)` instead computes
  the same number exactly when `denom r ≠ 0`: then both are `neigh r k · (denom r)⁻¹`. At `denom r = 0` they differ
  (`0 / 0` and `0 · (1 / 0)` are different conventions), which is why the statement carries `denom r ≠ 0`.
-/
import Idealize.ShloMosaic.Lib.ValueIdx
import Idealize.ShloMosaic.Lib.IdealHost
import Idealize.ShloMosaic.PureOps.Ideal

noncomputable section

namespace Cert.Spec

open Idealize.ShloMosaic Idealize.ShloMosaic.ValueIdx

/-- The three arrays' index types. -/
abbrev FeatIdx : Type := (⟨2, ![10000, 128]⟩ : Shape).Idx
abbrev AdjIdx : Type := (⟨2, ![10000, 10000]⟩ : Shape).Idx
abbrev WIdx : Type := (⟨2, ![128, 256]⟩ : Shape).Idx

/-- The sum of row r of the adjacency matrix. -/
def rowsum (adj : AdjIdx → EReal) (r : Fin 10000) : EReal := ∑ l : Fin 10000, adj (ix2 r l)

/-- The divisor of row r. -/
def denom (adj : AdjIdx → EReal) (r : Fin 10000) : EReal := rowsum adj r + 1

/-- Entry (r, k) of the product adjacency · features. -/
def neigh (feat : FeatIdx → EReal) (adj : AdjIdx → EReal) (r : Fin 10000) (k : Fin 128) : EReal :=
  ∑ l : Fin 10000, adj (ix2 r l) * feat (ix2 l k)

/-- Column k of the weight matrix's first half, and of its second. -/
def wlo (k : Fin 128) : Fin 256 := ⟨k.val, by have := k.isLt; omega⟩
def whi (k : Fin 128) : Fin 256 := ⟨128 + k.val, by have := k.isLt; omega⟩

/-- The result at row r, column j. -/
def Gat (feat : FeatIdx → EReal) (adj : AdjIdx → EReal) (W : WIdx → EReal) (r : Fin 10000) (j : Fin 128) : EReal :=
  (∑ k : Fin 128, feat (ix2 r k) * W (ix2 j (wlo k)))
    + ∑ k : Fin 128, Ideal.div (neigh feat adj r k) (denom adj r) * W (ix2 j (whi k))

/-- The result array. -/
def G (feat : FeatIdx → EReal) (adj : AdjIdx → EReal) (W : WIdx → EReal) : FeatIdx → EReal :=
  fun i => Gat feat adj W (i 0) (i 1)

theorem G_ix2 (feat : FeatIdx → EReal) (adj : AdjIdx → EReal) (W : WIdx → EReal) (r : Fin 10000) (j : Fin 128) :
    G feat adj W (ix2 r j) = Gat feat adj W r j := rfl

/-- Multiplying by the reciprocal is dividing, away from a zero divisor. -/
theorem mul_one_div (x y : EReal) (hy : y ≠ 0) : x * Ideal.div 1 y = Ideal.div x y := by
  unfold Ideal.div
  rw [if_neg hy, if_neg hy, one_mul]

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KPayload.lean ====
/-
  The kernel body's arithmetic, read at one index of its 400 × 128 result block, on the extended reals.

  The body takes a 400 × 10000 block A of the adjacency matrix, the 10000 × 128 feature matrix X, the block's own
  400 × 128 feature rows H, and the two 128 × 128 halves W₁, W₂ of the weight matrix. It forms the row sums
  s p = ∑ l, A (p, l), the reciprocal c p = 1 / (s p + 1), the product N = A · X, the scaled product
  N' (p, k) = N (p, k) · c p, and returns H · W₁ + N' · W₂. At (p, q) that is

    ∑ k, H (p, k) · W₁ (k, q)  +  ∑ k, ((∑ l, A (p, l) · X (l, k)) · (1 / ((∑ l, A (p, l)) + 1))) · W₂ (k, q).
-/
import proofs.«109669_g81527069213077_cont_9to1c4b_579_13_alg».proof.Proof.Gen.KernelIdeal.Skeleton
import proofs.«109669_g81527069213077_cont_9to1c4b_579_13_alg».proof.Proof.Spec
import proofs.«109669_g81527069213077_cont_9to1c4b_579_13_alg».proof.Proof.LibDense
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KPayload

open Idealize.ShloMosaic Idealize.ShloMosaic.ValueIdx

/-! ## A column: a vector laid down one unit-wide column, and that column laid along every column -/

section Columns

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The row sums -/

/-- The sum over axis 1 of an `[a, b]` array, read at row `p`: the sum of that row's entries. -/
theorem rowSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ x 0x00000000#32 h hφ hacc (ix1 p) = ∑ l : Fin b, x (ix2 p l) := by
  rw [Ideal.multiReduction_add_single]
  refine Finset.sum_congr rfl fun l _ => congrArg x ?_
  funext ax
  match ax with
  | ⟨0, _⟩ => exact Fin.ext rfl
  | ⟨1, _⟩ => exact Fin.ext rfl

/-! ## The reciprocal column -/

/-- One over (row sum plus one), as the body spells it — the row sums laid down a unit-wide column, a splat one added,
    a splat one divided by the result — read at `(p, u)`. -/
theorem recip_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (p : Fin a) (u : Fin 1) :
    divf (broadcast ⟨2, ![a, 1]⟩ (Scalar.ofBits (F := Ideal) .f32 0x3F800000#32))
        (addf (shapeCast ⟨2, ![a, 1]⟩ (multiReduction (F := Ideal) .add [1] ⟨1, ![a]⟩ x 0x00000000#32 h hφ hacc) hc)
          (broadcast ⟨2, ![a, 1]⟩ (Scalar.ofBits (F := Ideal) .f32 0x3F800000#32))) (ix2 p u)
      = Ideal.div 1 ((∑ l : Fin b, x (ix2 p l)) + 1) := by
  show Ideal.div (Ideal.ofBits .f32 0x3F800000#32)
      (shapeCast ⟨2, ![a, 1]⟩ (multiReduction (F := Ideal) .add [1] ⟨1, ![a]⟩ x 0x00000000#32 h hφ hacc) hc (ix2 p u)
        + Ideal.ofBits .f32 0x3F800000#32) = _
  rw [shapeCast_a_a1_apply, rowSum_apply, Ideal.ofBits_one_f32]

/-! ## The body

The result is the sum of two rows-by-columns products. The first is the block's feature rows by the first weight half.
The second is, by the second weight half, the product adjacency block · features with every row `p` multiplied by that
row's reciprocal `1 / (row sum + 1)`; both weight halves pass through a reshaping to their own shape, which changes
nothing. -/

open Idealize.ShloMosaic Idealize.ShloMosaic.ValueIdx Cert.KernelIdeal in
theorem pay_apply (v0 : Vec Ideal S400x10000 .f32) (v3 : Vec Ideal S10000x128 .f32) (v9 : Vec Ideal S400x128 .f32)
    (v10 : Vec Ideal S128x128 .f32) (v15 : Vec Ideal S128x128 .f32) (p : Fin 400) (q : Fin 128) :
    Cert.KernelIdeal.Gen.k0_pay1 (F := Ideal) v0 v3 v9 v10 v15 (ix2 p q)
      = (∑ k : Fin 128, v9 (ix2 p k) * v10 (ix2 k q))
        + ∑ k : Fin 128, ((∑ l : Fin 10000, v0 (ix2 p l) * v3 (ix2 l k)) * Ideal.div 1 ((∑ l : Fin 10000, v0 (ix2 p l)) + 1)) * v15 (ix2 k q) := by
  have hd1 : dot_S400x10000_S10000x128_S400x128_1_0_0_1_n_n = DotDims.plain 400 10000 128 := rfl
  have hd2 : dot_S400x128_S128x128_S400x128_1_0_0_1_n_n = DotDims.plain 400 128 128 := rfl
  unfold Cert.KernelIdeal.Gen.k0_pay1
  dsimp only
  -- the outer sum is pointwise; both products contract the left operand's columns against the right operand's rows
  rw [addf_apply, hd1, hd2, shapeCast_self, shapeCast_self]
  unfold matmul
  -- each product into a zero array, at (p, q), is the sum over the contracted coordinate
  rw [Cert.LibDense.matmul_plain_zero_apply, Cert.LibDense.matmul_plain_zero_apply]
  -- the first sums agree; the second agree term by term
  refine congrArg _ (Finset.sum_congr rfl fun k _ => ?_)
  -- entry (p, k) of the scaled product: entry (p, k) of adjacency block · features, times the column's entry at row p
  rw [mulf_apply, Cert.LibDense.matmul_plain_zero_apply, broadcastTo_a1_ab_apply]
  exact congrArg (fun z => (∑ l : Fin 10000, v0 (ix2 p l) * v3 (ix2 l k)) * z * v15 (ix2 k q))
    (recip_apply v0 _ _ _ _ p 0)

end Cert.KPayload

end
-- ==== Proof.KValue.lean ====
/-
  What the kernel's result array holds after the run, at the ideal instance: the specification's function of the
  three argument arrays.

  Point t of the grid stages rows 400 t .. 400 t + 399 of the feature and adjacency matrices, the whole feature matrix,
  and the two transposed halves of the weight matrix: entry (k, q) of the first is W (q, k), of the second
  W (q, 128 + k). The body's block at (p, q) is then the specification at row 400 t + p, column q, once the
  reciprocal it multiplies by is read as a quotient, which needs that row's divisor nonzero. The 25 blocks of 400
  rows tile the 10000 rows, so the array ends as the specification everywhere.
-/
import proofs.«109669_g81527069213077_cont_9to1c4b_579_13_alg».proof.Proof.KIFrame
import proofs.«109669_g81527069213077_cont_9to1c4b_579_13_alg».proof.Proof.KPayload
import proofs.«109669_g81527069213077_cont_9to1c4b_579_13_alg».proof.Proof.Spec
import Idealize.ShloMosaic.Lib.Pipeline.Value
import Idealize.ShloMosaic.Lib.ValueIdx
import Idealize.ShloMosaic.Lib.StableHlo.Run

set_option maxRecDepth 16384

noncomputable section

namespace Cert.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region

/-- Row 400 t + p of the arrays: row p of the block of point t. -/
def row (t : Fin cfg0.N) (p : Fin 400) : Fin 10000 :=
  ⟨400 * t.val + p.val, by have h := t.isLt; have e : cfg0.N = 25 := N_0; have := p.isLt; omega⟩

/-- The body's block at (p, q), from five blocks that are what point t stages, is the specification at row
    400 t + p: its product with the reciprocal of the divisor is the quotient, the divisor being nonzero. -/
theorem block_eq (feat : Spec.FeatIdx → EReal) (adj : Spec.AdjIdx → EReal) (W : Spec.WIdx → EReal)
    (t : Fin cfg0.N) (xRows : Vec Ideal S400x128 .f32) (xAdj : Vec Ideal S400x10000 .f32) (xFeat : Vec Ideal S10000x128 .f32)
    (xW1 : Vec Ideal S128x128 .f32) (xW2 : Vec Ideal S128x128 .f32)
    (hRows : ∀ (p : Fin 400) (k : Fin 128), xRows (ix2 p k) = feat (ix2 (row t p) k))
    (hAdj : ∀ (p : Fin 400) (l : Fin 10000), xAdj (ix2 p l) = adj (ix2 (row t p) l))
    (hFeat : ∀ (l : Fin 10000) (k : Fin 128), xFeat (ix2 l k) = feat (ix2 l k))
    (hW1 : ∀ (k q : Fin 128), xW1 (ix2 k q) = W (ix2 q (Spec.wlo k)))
    (hW2 : ∀ (k q : Fin 128), xW2 (ix2 k q) = W (ix2 q (Spec.whi k)))
    (p : Fin 400) (q : Fin 128) (hd : Spec.denom adj (row t p) ≠ 0) :
    k0_pay1 (F := Ideal) xAdj xFeat xRows xW1 xW2 (ix2 p q) = Spec.Gat feat adj W (row t p) q := by
  rw [Cert.KPayload.pay_apply]
  unfold Spec.Gat
  have hsum : (∑ l : Fin 10000, xAdj (ix2 p l)) + 1 = Spec.denom adj (row t p) := by
    unfold Spec.denom Spec.rowsum
    exact congrArg (· + 1) (Finset.sum_congr rfl fun l _ => hAdj p l)
  rw [hsum]
  refine congrArg₂ (· + ·) (Finset.sum_congr rfl fun k _ => by rw [hRows, hW1]) (Finset.sum_congr rfl fun k _ => ?_)
  have hn : (∑ l : Fin 10000, xAdj (ix2 p l) * xFeat (ix2 l k)) = Spec.neigh feat adj (row t p) k := by
    unfold Spec.neigh
    exact Finset.sum_congr rfl fun l _ => by rw [hAdj, hFeat]
  rw [hn, Spec.mul_one_div _ _ hd, hW2]

variable (m : (ℓ : Loc nD τ sig) → Buf (Elt Ideal) ℓ) (ρ : Dev nD → PrngReg)

/-- The three argument arrays on core c, as launched. -/
abbrev feat (c : Dev nD) : Spec.FeatIdx → EReal := m ((c : Thread nD τ).loc main_arg0)
abbrev adj (c : Dev nD) : Spec.AdjIdx → EReal := m ((c : Thread nD τ).loc main_arg1)
abbrev wts (c : Dev nD) : Spec.WIdx → EReal := m ((c : Thread nD τ).loc main_arg2)

theorem hz : (![0, 0] : Fin 2 → Nat) = fun _ => 0 := funext fun a => by fin_cases a <;> rfl

/-! ## The two transposed halves of the weight matrix -/

/-- The first half: the transpose of columns 0 .. 127 of the weight matrix. -/
theorem V_w1 (c : Dev nD) : (V m c main_call0_v1 : S128x128.Idx → EReal)
    = transpose S128x128 [1, 0] (extractStridedSlice S128x128 ![0, 0] (wts m c) slices_S128x256_S128x128_0_0) transposes_S128x128_S128x128_1_0 := by
  dsimp only [V, hostOps0]; after_results; rfl

/-- The second half: the transpose of columns 128 .. 255. -/
theorem V_w2 (c : Dev nD) : (V m c main_call0_v3 : S128x128.Idx → EReal)
    = transpose S128x128 [1, 0] (extractStridedSlice S128x128 ![0, 128] (wts m c) slices_S128x256_S128x128_0_128) transposes_S128x128_S128x128_1_0 := by
  dsimp only [V, hostOps0]; after_results; rfl

/-- Entry (k, q) of the first half is W (q, k). -/
theorem V_w1_apply (c : Dev nD) (k q : Fin 128) : V m c main_call0_v1 (ix2 k q) = wts m c (ix2 q (Spec.wlo k)) := by
  refine (congrFun (V_w1 m c) (ix2 k q)).trans ?_
  refine (transpose_apply [1, 0] _ transposes_S128x128_S128x128_1_0 (ix2 k q) (ix2 q k) (fun b => match b with
    | ⟨0, _⟩ => rfl
    | ⟨1, _⟩ => rfl)).trans ?_
  exact extractStridedSlice_apply ![0, 0] _ slices_S128x256_S128x128_0_0 (ix2 q k) (ix2 q (Spec.wlo k)) (fun a => match a with
    | ⟨0, _⟩ => (Nat.zero_add _).symm
    | ⟨1, _⟩ => (Nat.zero_add _).symm)

/-- Entry (k, q) of the second half is W (q, 128 + k). -/
theorem V_w2_apply (c : Dev nD) (k q : Fin 128) : V m c main_call0_v3 (ix2 k q) = wts m c (ix2 q (Spec.whi k)) := by
  refine (congrFun (V_w2 m c) (ix2 k q)).trans ?_
  refine (transpose_apply [1, 0] _ transposes_S128x128_S128x128_1_0 (ix2 k q) (ix2 q k) (fun b => match b with
    | ⟨0, _⟩ => rfl
    | ⟨1, _⟩ => rfl)).trans ?_
  exact extractStridedSlice_apply ![0, 128] _ slices_S128x256_S128x128_0_128 (ix2 q k) (ix2 q (Spec.whi k)) (fun a => match a with
    | ⟨0, _⟩ => (Nat.zero_add _).symm
    | ⟨1, _⟩ => rfl)

/-! ## What each window stages at point t -/

/-- The printed index maps over the grid: the two row-block inputs and the result are at block (t, 0), the three
    whole-array inputs at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem rows_read (c : Dev nD) (t : Fin cfg0.N) (p : Fin 400) (k : Fin 128) : iblk m c 0 t (ix2 p k) = feat m c (ix2 (row t p) k) := by
  show V m c main_arg0 (((cfg0.win 0).blk t).view.emb (ix2 p k)) = _
  rw [V_main_arg0]
  obtain ⟨e0, e1, -⟩ := idx_facts t
  refine congrArg (m ((c : Thread nD τ).loc main_arg0)) (funext fun a => Fin.ext ?_)
  match a with
  | ⟨0, _⟩ => show win0_0.index t (0 : Fin 2) * 400 + 1 * p.val = 400 * t.val + p.val; omega
  | ⟨1, _⟩ => show win0_0.index t (1 : Fin 2) * 128 + 1 * k.val = k.val; omega

theorem adj_read (c : Dev nD) (t : Fin cfg0.N) (p : Fin 400) (l : Fin 10000) : iblk m c 1 t (ix2 p l) = adj m c (ix2 (row t p) l) := by
  show V m c main_arg1 (((cfg0.win 1).blk t).view.emb (ix2 p l)) = _
  rw [V_main_arg1]
  obtain ⟨-, -, e0, e1, -⟩ := idx_facts t
  refine congrArg (m ((c : Thread nD τ).loc main_arg1)) (funext fun a => Fin.ext ?_)
  match a with
  | ⟨0, _⟩ => show win0_1.index t (0 : Fin 2) * 400 + 1 * p.val = 400 * t.val + p.val; omega
  | ⟨1, _⟩ => show win0_1.index t (1 : Fin 2) * 10000 + 1 * l.val = l.val; omega

theorem feat_read (c : Dev nD) (t : Fin cfg0.N) (l : Fin 10000) (k : Fin 128) : iblk m c 2 t (ix2 l k) = feat m c (ix2 l k) := by
  show V m c main_arg0 (((cfg0.win 2).blk t).view.emb (ix2 l k)) = _
  rw [V_main_arg0]
  obtain ⟨-, -, -, -, e0, e1, -⟩ := idx_facts t
  refine congrArg (m ((c : Thread nD τ).loc main_arg0)) (funext fun a => Fin.ext ?_)
  match a with
  | ⟨0, _⟩ => show win0_2.index t (0 : Fin 2) * 10000 + 1 * l.val = l.val; omega
  | ⟨1, _⟩ => show win0_2.index t (1 : Fin 2) * 128 + 1 * k.val = k.val; omega

theorem w1_read (c : Dev nD) (t : Fin cfg0.N) (k q : Fin 128) : iblk m c 3 t (ix2 k q) = wts m c (ix2 q (Spec.wlo k)) := by
  show V m c main_call0_v1 (((cfg0.win 3).blk t).view.emb (ix2 k q)) = _
  obtain ⟨-, -, -, -, -, -, e0, e1, -⟩ := idx_facts t
  have he : ((cfg0.win 3).blk t).view.emb (ix2 k q) = ix2 k q := funext fun a => Fin.ext (by
    match a with
    | ⟨0, _⟩ => show win0_3.index t (0 : Fin 2) * 128 + 1 * k.val = k.val; omega
    | ⟨1, _⟩ => show win0_3.index t (1 : Fin 2) * 128 + 1 * q.val = q.val; omega)
  rw [he]
  exact V_w1_apply m c k q

theorem w2_read (c : Dev nD) (t : Fin cfg0.N) (k q : Fin 128) : iblk m c 4 t (ix2 k q) = wts m c (ix2 q (Spec.whi k)) := by
  show V m c main_call0_v3 (((cfg0.win 4).blk t).view.emb (ix2 k q)) = _
  obtain ⟨-, -, -, -, -, -, -, -, e0, e1, -⟩ := idx_facts t
  have he : ((cfg0.win 4).blk t).view.emb (ix2 k q) = ix2 k q := funext fun a => Fin.ext (by
    match a with
    | ⟨0, _⟩ => show win0_4.index t (0 : Fin 2) * 128 + 1 * k.val = k.val; omega
    | ⟨1, _⟩ => show win0_4.index t (1 : Fin 2) * 128 + 1 * q.val = q.val; omega)
  rw [he]
  exact V_w2_apply m c k q

/-! ## The block written back at point t, and the array after the run -/

/-- Point t writes back rows 400 t .. 400 t + 399 of the specification. -/
theorem flushed_eq (c : Dev nD) (hd : ∀ r, Spec.denom (adj m c) r ≠ 0) (t : Fin cfg0.N) :
    (dats m 0 c).flushed 5 t = ((cfg0.win 5).blk t).view.read (Elt Ideal) (Spec.G (feat m c) (adj m c) (wts m c)) := by
  show (cfg0.win 5).cut (grid0.coords t) ((dats m 0 c).after 5 t) = _
  rw [after5]
  unfold outBlock
  rw [View.canon_unit_zero hz]
  simp only [View.ld_unit_zero (S := S400x128) hz, View.ld_unit_zero (S := S400x10000) hz, View.ld_unit_zero (S := S10000x128) hz,
    View.ld_unit_zero (S := S128x128) hz]
  funext j
  obtain ⟨p, q, rfl⟩ : ∃ (p : Fin 400) (q : Fin 128), j = ix2 p q := ⟨j 0, j 1, eq_ix2 j⟩
  show k0_pay1 (F := Ideal) (iblk m c 1 t) (iblk m c 2 t) (iblk m c 0 t) (iblk m c 3 t) (iblk m c 4 t) (ix2 p q)
    = Spec.G (feat m c) (adj m c) (wts m c) (((cfg0.win 5).blk t).view.emb (ix2 p q))
  obtain ⟨-, -, -, -, -, -, -, -, -, -, e0, e1⟩ := idx_facts t
  have he : ((cfg0.win 5).blk t).view.emb (ix2 p q) = ix2 (row t p) q := funext fun a => Fin.ext (by
    match a with
    | ⟨0, _⟩ => show win0_5.index t (0 : Fin 2) * 400 + 1 * p.val = 400 * t.val + p.val; omega
    | ⟨1, _⟩ => show win0_5.index t (1 : Fin 2) * 128 + 1 * q.val = q.val; omega)
  rw [he, Spec.G_ix2]
  exact block_eq (feat m c) (adj m c) (wts m c) t (iblk m c 0 t) (iblk m c 1 t) (iblk m c 2 t) (iblk m c 3 t) (iblk m c 4 t)
    (rows_read m c t) (adj_read m c t) (feat_read m c t) (w1_read m c t) (w2_read m c t) p q (hd (row t p))

/-- An index of the result array is in point t's block iff its row is among rows 400 t .. 400 t + 399. -/
theorem mem_blk (t : Fin cfg0.N) (i : S10000x128.Idx) :
    i ∈ ((cfg0.win 5).blk t).view.set ↔ ∀ a : Fin 2, win0_5.index t a * S400x128.size a ≤ (i a).val ∧ (i a).val < win0_5.index t a * S400x128.size a + S400x128.size a := by
  show i ∈ ((View.whole main_v0).slice (win0_5.rect t)).set ↔ _
  rw [View.set_slice_whole, Rect.mem_set_unit]
  exact Iff.rfl

/-- The 25 blocks of 400 rows tile the 10000 rows: row r is in the block of point r / 400. -/
theorem cover (i : S10000x128.Idx) : ∃ t : Fin cfg0.N, (cfg0.win 5).flush t = true ∧ i ∈ ((cfg0.win 5).blk t).view.set := by
  have hi0 : (i 0).val < 10000 := (i 0).isLt
  have hi1 : (i 1).val < 128 := (i 1).isLt
  have e : cfg0.N = 25 := N_0
  let t : Fin cfg0.N := ⟨(i 0).val / 400, by omega⟩
  obtain ⟨-, -, -, -, -, -, -, -, -, -, e0, e1⟩ := idx_facts t
  refine ⟨t, flush0_5 t, ?_⟩
  rw [mem_blk]
  intro a
  have ht : t.val = (i 0).val / 400 := rfl
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The result array after the run is the specification of the launch contents. -/
theorem final (c : Dev nD) (hd : ∀ r, Spec.denom (adj m c) r ≠ 0) :
    (dats m 0 c).arrAt 5 cfg0.N = Spec.G (feat m c) (adj m c) (wts m c) :=
  (dats m 0 c).arrAt_eq_of_cover 5 (Spec.G (feat m c) (adj m c) (wts m c)) (fun t _ => flushed_eq m c hd t) cover

/-- The run of the program with the kernel: it ends with the result array at the specification and the arguments
    unchanged, when every row's divisor is nonzero. -/
theorem run (hd : ∀ c r, Spec.denom (adj m c) r ≠ 0) :
    θ_run defs (onTc (τ := τ) (main (F := Ideal))) ⟨m, fun _ => 0, ρ⟩ (fun r => ∀ c : Dev nD,
      r.2.mem ((c.tc : Thread nD τ).loc main_v0) = Spec.G (feat m c) (adj m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c (hd c)), (h c).2⟩) (run_named m ρ)

end Cert.KValue

end
-- ==== Proof.RefValue.lean ====
/-
  The reference program's last stage is the specification.

  The reference forms, for row r: the product adjacency · features, the row sum of the adjacency plus one, their
  quotient entry by entry, then lays the features (columns 0 … 127) and that quotient (columns 128 … 255) side by side
  and multiplies the 256-wide row by the transposed weights. Read at (r, j) this is a sum over 256 columns, which
  splits into the two sums over 128 columns the specification is made of.
-/
import proofs.«109669_g81527069213077_cont_9to1c4b_579_13_alg».proof.Proof.Gen.ReferenceIdeal.Read
import proofs.«109669_g81527069213077_cont_9to1c4b_579_13_alg».proof.Proof.Spec
import Idealize.ShloMosaic.Lib.Pipeline.Value
import Idealize.ShloMosaic.Lib.IdealHost
import Idealize.ShloMosaic.PureOps.Ideal.Laws
import Mathlib.Algebra.BigOperators.Fin

noncomputable section

namespace Cert.RefValue

open Cert.ReferenceIdeal Cert.ReferenceIdeal.Gen Cert.ReferenceIdeal.Read Idealize.ShloMosaic Idealize.ShloMosaic.ValueIdx
open Cert.Spec

/-- A sum over 256 columns is the sum over the first 128 plus the sum over the last 128. -/
theorem sum_halves (f : Fin 256 → EReal) :
    ∑ k : Fin 256, f k = (∑ k : Fin 128, f (wlo k)) + ∑ k : Fin 128, f (whi k) :=
  Fin.sum_univ_add (a := 128) (b := 128) f

/-- Entry (r, k) of adjacency · features. -/
theorem v0_eq (x0 : (⟨S10000x128, .f32⟩ : BufTy).Contents (Elt Ideal)) (x1 : (⟨S10000x10000, .f32⟩ : BufTy).Contents (Elt Ideal))
    (r : Fin 10000) (k : Fin 128) : val_main_v0 (F := Ideal) x0 x1 (ix2 r k) = neigh x0 x1 r k := by
  rw [val_main_v0_apply]
  unfold neigh
  refine Finset.sum_congr rfl fun l _ => ?_
  congr 1
  · exact congrArg x1 (funext fun a => Fin.ext (by match a with | ⟨0, _⟩ => rfl | ⟨1, _⟩ => rfl))
  · exact congrArg x0 (funext fun a => Fin.ext (by match a with | ⟨0, _⟩ => rfl | ⟨1, _⟩ => rfl))

/-- The divisor at (r, k): zero plus the row sum, plus one. -/
theorem v5_eq (x1 : (⟨S10000x10000, .f32⟩ : BufTy).Contents (Elt Ideal)) (r : Fin 10000) (k : Fin 128) :
    val_main_v5 (F := Ideal) x1 (ix2 r k) = denom x1 r := by
  rw [val_main_v5_apply, val_main_v4_apply, val_main_v2_apply, val_main_v3_apply, val_main_cst_0_apply,
    val_main_v1_apply, val_main_cst_apply]
  show (Ideal.ofBits .f32 0x00000000#32 + ∑ l : Fin 10000, x1 (idx_main_v1 (idx_main_v2 (idx_main_v5 (ix2 r k))) l))
      + Ideal.ofBits .f32 0x3F800000#32 = _
  rw [Ideal.ofBits_zero_f32, zero_add, Ideal.ofBits_one_f32]
  unfold denom rowsum
  refine congrArg (· + 1) (Finset.sum_congr rfl fun l _ => ?_)
  exact congrArg x1 (funext fun a => Fin.ext (by
    match a with
    | ⟨0, _⟩ => show r.val * 1 + 0 = r.val; omega
    | ⟨1, _⟩ => rfl))

/-- The quotient at (r, k). -/
theorem v6_eq (x0 : (⟨S10000x128, .f32⟩ : BufTy).Contents (Elt Ideal)) (x1 : (⟨S10000x10000, .f32⟩ : BufTy).Contents (Elt Ideal))
    (r : Fin 10000) (k : Fin 128) :
    val_main_v6 (F := Ideal) x0 x1 (ix2 r k) = Ideal.div (neigh x0 x1 r k) (denom x1 r) := by
  rw [val_main_v6_apply, Ideal.hostDivf_def, v0_eq, v5_eq]

/-- The joined row: its first 128 columns are the features. -/
theorem v7_lo (x0 : (⟨S10000x128, .f32⟩ : BufTy).Contents (Elt Ideal)) (x1 : (⟨S10000x10000, .f32⟩ : BufTy).Contents (Elt Ideal))
    (r : Fin 10000) (j k : Fin 128) :
    val_main_v7 (F := Ideal) x0 x1 (lidx_main_v9 (ix2 r j) (wlo k)) = x0 (ix2 r k) := by
  unfold val_main_v7
  exact concatenate_pair_apply_left 1 x0 (val_main_v6 (F := Ideal) x0 x1) concatenates_S10000x128_S10000x128_S10000x256_d1
    (lidx_main_v9 (ix2 r j) (wlo k)) rfl (ix2 r k) (fun b => match b with
      | ⟨0, _⟩ => rfl
      | ⟨1, _⟩ => rfl)

/-- Its last 128 columns are the quotient. -/
theorem v7_hi (x0 : (⟨S10000x128, .f32⟩ : BufTy).Contents (Elt Ideal)) (x1 : (⟨S10000x10000, .f32⟩ : BufTy).Contents (Elt Ideal))
    (r : Fin 10000) (j k : Fin 128) :
    val_main_v7 (F := Ideal) x0 x1 (lidx_main_v9 (ix2 r j) (whi k)) = val_main_v6 (F := Ideal) x0 x1 (ix2 r k) := by
  unfold val_main_v7
  exact concatenate_pair_apply_right 1 x0 (val_main_v6 (F := Ideal) x0 x1) concatenates_S10000x128_S10000x128_S10000x256_d1
    (lidx_main_v9 (ix2 r j) (whi k)) rfl rfl (ix2 r k) (fun b hb => match b with
      | ⟨0, _⟩ => rfl
      | ⟨1, _⟩ => absurd rfl hb)
    (by show k.val + 128 = 128 + k.val; omega)

/-- The reference's result is the specified one. -/
theorem ref_eq_G (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x256, .f32⟩ : BufTy).Contents (Elt Ideal)) :
    Cert.ReferenceIdeal.Read.val_main_v9 (F := Ideal) x0 x1 x2 = Cert.Spec.G x0 x1 x2 := by
  funext i
  obtain ⟨r, j, rfl⟩ : ∃ (r : Fin 10000) (j : Fin 128), i = ix2 r j := ⟨i 0, i 1, eq_ix2 i⟩
  rw [val_main_v9_apply, Cert.Spec.G_ix2, sum_halves]
  unfold Cert.Spec.Gat
  congr 1
  · refine Finset.sum_congr rfl fun k _ => ?_
    rw [v7_lo, val_main_v8_apply]
    refine congrArg (x0 (ix2 r k) * ·) ?_
    exact congrArg x2 (funext fun a => Fin.ext (by match a with | ⟨0, _⟩ => rfl | ⟨1, _⟩ => rfl))
  · refine Finset.sum_congr rfl fun k _ => ?_
    rw [v7_hi, v6_eq, val_main_v8_apply]
    refine congrArg (Ideal.div (neigh x0 x1 r k) (denom x1 r) * ·) ?_
    exact congrArg x2 (funext fun a => Fin.ext (by match a with | ⟨0, _⟩ => rfl | ⟨1, _⟩ => rfl))

end Cert.RefValue

end
-- ==== Proof.PreDecode.lean ====
/-
  The printed precondition, read at the extended reals, gives that every row's divisor is nonzero.

  The precondition's last conjunct says, for every row r, that (∑ l, adj (r, l)) + 1 differs from 0: the row sum is
  formed (from the zero initial value), one is added, the result is compared "not equal" with zero, and the comparisons
  are conjoined over all rows. Read back at row r this is `denom adj r ≠ 0`.
-/
import proofs.«109669_g81527069213077_cont_9to1c4b_579_13_alg».proof.Pre_finite_inputs
import proofs.«109669_g81527069213077_cont_9to1c4b_579_13_alg».proof.Proof.Spec
import Idealize.ShloMosaic.Lib.ReduceAll
import Idealize.ShloMosaic.Lib.StableHlo.Predicate
import Idealize.ShloMosaic.Lib.IdealHost
import Idealize.ShloMosaic.PureOps.Ideal.Laws
import Idealize.ShloMosaic.Lib.ValueIdx

noncomputable section

namespace Cert.PreDecode

open Idealize.ShloMosaic Idealize.ShloMosaic.ValueIdx
open Cert.Pre_finite_inputs

/-- The scalar shape has one index. -/
instance : Subsingleton (⟨0, ![]⟩ : Shape).Idx := ⟨fun a b => funext fun d => d.elim0⟩

/-- A "not equal" comparison of two extended reals that came out true says they differ. -/
theorem ne_of_cmp_une (a b : EReal) (h : Ideal.cmp .une a b = 1#1) : a ≠ b := by
  unfold Ideal.cmp at h
  rw [StableHlo.Predicate.ofBool_eq_one_iff] at h
  exact of_decide_eq_true h

/-- The row sum the precondition forms, from the zero initial value, is the sum of the row. -/
theorem rowsum_read [Facts] (x1 : FVec Ideal S10000x10000 .f32) (r : Fin 10000) :
    Host.reduceAdd (F := Ideal) x1 (constant (F := Ideal) S_ .f32 0x00000000#32) Facts.reducesTo_S10000x10000_S10000_d1 Facts.h_S_ (ix1 r)
      = Cert.Spec.rowsum x1 r := by
  simp only [Host.reduceAdd, Ideal.hostReduceAdd_def]
  rw [Ideal.hostReduceAdd_single Facts.reducesTo_S10000x10000_S10000_d1 (by decide)]
  show Ideal.ofBits .f32 0x00000000#32 + _ = _
  rw [Ideal.ofBits_zero_f32, zero_add]
  unfold Cert.Spec.rowsum
  refine Finset.sum_congr rfl fun k _ => ?_
  exact congrArg x1 (funext fun a => Fin.ext (by match a with | ⟨0, _⟩ => rfl | ⟨1, _⟩ => rfl))

theorem denom_ne_zero [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x256 .f32)
    (h : Cert.Pre_finite_inputs.fn (F := Ideal) x0 x1 x2 = fun _ => 1#1) (r : Fin 10000) :
    Cert.Spec.denom x1 r ≠ 0 := by
  have h0 := congrFun h ix0
  dsimp only [Cert.Pre_finite_inputs.fn, Cert.Pre_finite_inputs.fn_part1] at h0
  have h1 := (IntOp.andi_eq_one.1 h0).2
  have h2 := Host.reduce_andi_all _ _ _ _ _ h1 (ix1 r)
  have h3 := ne_of_cmp_une _ _ h2
  intro hd
  apply h3
  show Host.reduceAdd (F := Ideal) x1 (constant (F := Ideal) S_ .f32 0x00000000#32) Facts.reducesTo_S10000x10000_S10000_d1 Facts.h_S_ (ix1 r)
      + Ideal.ofBits .f32 0x3F800000#32 = Ideal.ofBits .f32 0x00000000#32
  rw [rowsum_read, Ideal.ofBits_one_f32, Ideal.ofBits_zero_f32]
  exact hd

end Cert.PreDecode

end
-- ==== Proof.lean ====
/-
  A GraphSAGE layer on a dense graph: the Pallas kernel against its jnp reference, over the extended reals.

  With features X (10000 x 128), adjacency A (10000 x 10000) and weights W (128 x 256), the reference computes
      N = (A X) / (rowsum A + 1)   (row by row),     result = [X | N] Wᵀ,
  and the kernel, one 400-row stripe of A per grid point,
      result = X W₁ᵀ + ((A X) · (1 / (rowsum A + 1))) W₂ᵀ,     W = [W₁ | W₂].
  A product over the 256 joined columns is the sum of the products over each half, with no condition (sums of
  extended reals may be regrouped freely). Multiplying by the reciprocal is dividing exactly where the divisor is
  nonzero; where a row's divisor rowsum + 1 is zero the reference itself divides by zero, and the two conventions for
  that differ. So the claim is stated on the reference's own domain: every row's divisor is nonzero (a conjunct added
  to the precondition). Finiteness of the inputs is not used.

  The three frames: the reference is a straight line of host operations (its generated run); the kernel's program,
  at either float instance, is the pipelined region of Proof/KIFrame.lean and Proof/KFrame.lean. No operation of the
  kernel was rewritten for the ideal reading, so nothing is owed for that.
-/
import proofs.«109669_g81527069213077_cont_9to1c4b_579_13_alg».proof.Defs
import proofs.«109669_g81527069213077_cont_9to1c4b_579_13_alg».proof.Proof.Gen.Kernel
import proofs.«109669_g81527069213077_cont_9to1c4b_579_13_alg».proof.Proof.Gen.KernelIdeal
import proofs.«109669_g81527069213077_cont_9to1c4b_579_13_alg».proof.Proof.Gen.ReferenceIdeal
import proofs.«109669_g81527069213077_cont_9to1c4b_579_13_alg».proof.Proof.Gen.Pre_finite_inputs
import proofs.«109669_g81527069213077_cont_9to1c4b_579_13_alg».proof.Proof.Gen.ReferenceIdeal.Run
import proofs.«109669_g81527069213077_cont_9to1c4b_579_13_alg».proof.Proof.Gen.ReferenceIdeal.Read
import proofs.«109669_g81527069213077_cont_9to1c4b_579_13_alg».proof.Proof.KFrame
import proofs.«109669_g81527069213077_cont_9to1c4b_579_13_alg».proof.Proof.KIFrame
import proofs.«109669_g81527069213077_cont_9to1c4b_579_13_alg».proof.Proof.KValue
import proofs.«109669_g81527069213077_cont_9to1c4b_579_13_alg».proof.Proof.RefValue
import proofs.«109669_g81527069213077_cont_9to1c4b_579_13_alg».proof.Proof.PreDecode

noncomputable section

namespace Cert.Proof

open Idealize.ShloMosaic Idealize.SL.Sem

/-- The word-level program runs to the end, faults nowhere, and leaves its arguments unchanged. -/
theorem frame_kernel : Cert.frame_Kernel := fun m ρ _ => Cert.Kernel.Region.frame m ρ

/-- So does its reading at the extended reals. -/
theorem frame_kernelIdeal : Cert.frame_KernelIdeal := fun m ρ _ => Cert.KernelIdeal.Region.frame m ρ

/-- And the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal reading rewrote nothing. -/
theorem preserves : Cert.preserves_Kernel_KernelIdeal := trivial

/-- From memories that agree on the three arguments and satisfy the precondition, both programs end with the
    specification's array of the arguments: the kernel's by the tiling of its 25 row blocks, each row's divisor being
    nonzero by the precondition; the reference's by reading its last product column half by column half. -/
theorem algebraic : Cert.algebraic_KernelIdeal_ReferenceIdeal := by
  intro m ρ m' ρ' hpre hagree
  have hd : ∀ (c : Dev Cert.KernelIdeal.nD) (r : Fin 10000), Cert.Spec.denom (Cert.KValue.adj m c) r ≠ 0 :=
    fun c r => Cert.PreDecode.denom_ne_zero _ _ _ (hpre c) r
  refine ⟨_, Cert.KValue.run m ρ hd, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v9_eq _ _ _).trans (Cert.RefValue.ref_eq_G _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
